-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S1600000 32 := broadcastInDim S1600000 ![] bcast_S_S1600000 main_c_16
  let main_v45 : IVec S1600000 1 := cmpi .sge main_arg1 main_v44
  let main_c_17 : IVec S_ 32 := constantI S_ 32 100000#32
  let main_v46 : IVec S1600000 32 := broadcastInDim S1600000 ![] bcast_S_S1600000 main_c_17
  let main_v47 : IVec S1600000 1 := cmpi .slt main_arg1 main_v46
  let main_v48 : IVec S1600000 1 := andi main_v45 main_v47
  let main_c_18 : IVec S_ 1 := constantI S_ 1 1#1
  let main_v49 : IVec S_ 1 := (fun x v => Host.reduce IntOp.andi x v reducesTo_S1600000_S_d0 h_S_) main_v48 main_c_18
  let main_v50 : IVec S_ 1 := andi main_v43 main_v49
  main_v50

def fn_part1 {F : FTy → Type} [FloatOps F] (main_arg1 : IVec S1600000 32) (main_arg6 : FVec F S128x128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 86
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x128, .f32⟩
  | .hbm, ⟨41, _⟩ => ⟨S1600000x128, .i1⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1, .i32⟩
  | .hbm, ⟨62, _⟩ => ⟨S_, .i32⟩
  | .hbm, ⟨63, _⟩ => ⟨S1600000x1, .i32⟩
  | .hbm, ⟨64, _⟩ => ⟨S1600000x1, .i1⟩
  | .hbm, ⟨65, _⟩ => ⟨S1x1, .i32⟩
  | .hbm, ⟨66, _⟩ => ⟨S1600000x1, .i32⟩
  | .hbm, ⟨67, _⟩ => ⟨S1600000x1, .i1⟩
  | .hbm, ⟨68, _⟩ => ⟨S1600000x1, .i1⟩
  | .hbm, ⟨69, _⟩ => ⟨S_, .i1⟩
  | .hbm, ⟨70, _⟩ => ⟨S1600000, .i1⟩
  | .hbm, ⟨71, _⟩ => ⟨S1600000x128, .f32⟩
  | .hbm, ⟨72, _⟩ => ⟨S1600000x128, .i1⟩
  | .hbm, ⟨73, _⟩ => ⟨S_, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S128x128, .f32⟩
  | .hbm, ⟨81, _⟩ => ⟨S128x128, .f32⟩
  | .hbm, ⟨82, _⟩ => ⟨S128x128, .f32⟩
  | .hbm, ⟨83, _⟩ => ⟨S1x128, .f32⟩
  | .hbm, ⟨84, _⟩ => ⟨S1x128, .f32⟩
  | .hbm, ⟨85, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_v5 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v6 : Ref sig .tc := ⟨.hbm, 44, rfl⟩
abbrev main_cst_2 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v14 : Ref sig .tc := ⟨.hbm, 75, rfl⟩
abbrev main_cst_3 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.AggK.lean ====
/-
  The kernel program's host side, named: what it hands each of its two tiled stages.

  For node features `h`, edge sources `src` and edge targets `dst`:
  * the SOURCE POSITION of an edge is its source index with a negative index wrapped once by the node count;
  * an edge's MESSAGE is row (source position) of `h` when that position lies in [0, 99999], and a row of the
    not-a-number word otherwise (the gather itself clamps; the fill is applied on top of it);
  * the AGGREGATE at a node is the sum of the messages of the edges that target it;
  * the CLAMPED DEGREE of a node is the number of edges that target it, but at least one, kept as a column.
-/
import proofs.«414488_j78451872629304_3_alg».proof.Proof.Gen.KernelIdeal

noncomputable section

namespace Cert.KernelIdeal.HostValue

open Cert.KernelIdeal Cert.KernelIdeal.Gen Idealize.ShloMosaic

variable {F : FTy → Type} [FloatOps F]

/-- Each edge's source position, as a one-column index array: the source index, plus the node count when negative. -/
def srcPos (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge and feature: is the edge's source position inside [0, 99999]? -/
def srcInRange (src : IVec S1600000 32) : IVec S1600000x128 1 :=
  broadcastInDim S1600000x128 ![0] bcast_S1600000_S1600000x128_0
    (Host.reduce IntOp.andi
      (andi (cmpi .sge (srcPos src) (broadcastInDim S1600000x1 ![] bcast_S_S1600000x1 (constantI S_ 32 0#32)))
        (cmpi .sle (srcPos src)
          (broadcastInDim S1600000x1 ![0, 1] bcast_S1x1_S1600000x1_0_1
            (broadcastInDim S1x1 ![1] bcast_S1_S1x1_1 (constantI S1 32 99999#32)))))
      (constantI S_ 1 1#1) reducesTo_S1600000x1_S1600000_d1 h_S_)

/-- The rows the edges read, before any fill. -/
def rowsOf (h : FVec F S100000x128 .f32) (src : IVec S1600000 32) : FVec F S1600000x128 .f32 :=
  Host.gather gather_S100000x128_S1600000x1_S1600000x128_1_0_n_n_0_1_1128 h (srcPos src)

/-- The edges' messages: the rows read, filled with the not-a-number word where the source position is out of range. -/
def messages (h : FVec F S100000x128 .f32) (src : IVec S1600000 32) : FVec F S1600000x128 .f32 :=
  select (srcInRange src) (rowsOf h src)
    (broadcastInDim S1600000x128 ![] bcast_S_S1600000x128 (constant S_ .f32 0x7FC00000#32))

/-- Summing per-edge rows into their target nodes, from zero. -/
def sumInto (dst : IVec S1600000 32) (u : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) u

/-- The aggregate the kernel program computes. -/
def aggK (h : FVec F S100000x128 .f32) (src dst : IVec S1600000 32) : FVec F S100000x128 .f32 :=
  sumInto dst (messages h src)

/-- The clamped in-degree, as a column. -/
def degK (dst : IVec S1600000 32) : FVec F S100000x1 .f32 :=
  broadcastInDim S100000x1 ![0] bcast_S100000_S100000x1_0
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32))))

end Cert.KernelIdeal.HostValue

end
-- ==== Proof.LibTRef.lean ====
/-
  A typed reference carries a buffer together with the fact that the buffer's type is the value's. Contents are moved
  to the buffer's own type and back along that fact; moving there and back changes nothing. Stated for any typed
  reference, so that such pairs can be removed from a term by rewriting, without comparing the terms they wrap.
-/
import Idealize.ShloMosaic.Lib.StableHlo

namespace Idealize.ShloMosaic.StableHlo.TRef

open Idealize.ShloMosaic

variable {sig : RefSig} {T : BufTy} {Val : EltTy → Type}

/-- Contents carried to a buffer's own type and back are unchanged. -/
theorem ofBuf_toBuf (x : TRef sig T) (v : T.Contents Val) : x.ofBuf (x.toBuf v) = v := by
  obtain ⟨r, h, h2, h3⟩ := x
  subst h
  rfl

/-- Contents of a buffer carried to the value's type and back are unchanged. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.HostStretch.lean ====
/-
  Each stretch of host operations of the kernel program, read: what it leaves in the buffers the tiled stages (or a
  later stretch) read, as a function of what the stretch found in the buffers it reads. Every statement is over an
  arbitrary valuation `U` of the buffers at the stretch's start, so the stretches compose by substitution.
-/
import proofs.«414488_j78451872629304_3_alg».proof.Proof.Gen.KernelIdeal.Launch
import proofs.«414488_j78451872629304_3_alg».proof.Proof.AggK
import proofs.«414488_j78451872629304_3_alg».proof.Proof.LibTRef
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- The in-degree before the clamp: one added per edge at the edge's target. -/
def rawDeg (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

set_option maxHeartbeats 2000000

/-- The first stretch counts, per node, the edges that target it. -/
theorem s0_rawDeg (U : Valuation τ sig (Elt F)) :
    StableHlo.after hostOps0 U (Proc.devRef .tc main_v3)
      = rawDeg (U (Proc.devRef .tc main_arg2)) := by
  simp only [hostOps0]
  after_results_simp <;> (unfold rawDeg; rfl)

/-- …and leaves the number one for the clamp. -/
theorem s0_one (U : Valuation τ sig (Elt F)) :
    StableHlo.after hostOps0 U (Proc.devRef .tc main_cst_1)
      = constant S_ .f32 0x3F800000#32 := by
  simp only [hostOps0]
  after_results_simp <;> rfl

/-- The clamp: the greater of the splat scalar and the count. -/
theorem s1_clamped' (U : Valuation τ sig (Elt F)) :
    (TRef.of (T := ⟨S100000, .f32⟩) main_v4).ofBuf (StableHlo.after hostOps0_1 U (Proc.devRef .tc main_v4))
      = maximumf (broadcastInDim S100000 ![] bcast_S_S100000 (id (U (Proc.devRef .tc main_cst_1)))) (U (Proc.devRef .tc main_v3)) := by
  simp only [hostOps0_1]
  after_results_simp
  simp only [TRef.ofBuf_toBuf]
  rfl
theorem s1_clamped (U : Valuation τ sig (Elt F)) :
    StableHlo.after hostOps0_1 U (Proc.devRef .tc main_v4)
      = maximumf (broadcastInDim S100000 ![] bcast_S_S100000 (id (U (Proc.devRef .tc main_cst_1)))) (U (Proc.devRef .tc main_v3)) := s1_clamped' U

/-- The clamped count, kept as a column. -/
theorem s2_column (U : Valuation τ sig (Elt F)) :
    StableHlo.after hostOps0_2 U (Proc.devRef .tc main_v5)
      = broadcastInDim S100000x1 ![0] bcast_S100000_S100000x1_0 (U (Proc.devRef .tc main_v4)) := by
  simp only [hostOps0_2]
  after_results_simp <;> rfl

/-- The guarded gather of the input features: the edges' messages. -/
theorem s3_messages' (U : Valuation τ sig (Elt F)) :
    (TRef.of (T := ⟨S1600000x128, .f32⟩) main_v6).ofBuf (StableHlo.after hostOps0_3 U (Proc.devRef .tc main_v6))
      = messages (U (Proc.devRef .tc main_arg0)) (U (Proc.devRef .tc main_arg1)) := by
  simp only [hostOps0_3]
  after_results_simp
  simp only [TRef.ofBuf_toBuf]
  unfold messages rowsOf srcInRange srcPos
  rfl
theorem s3_messages (U : Valuation τ sig (Elt F)) :
    StableHlo.after hostOps0_3 U (Proc.devRef .tc main_v6)
      = messages (U (Proc.devRef .tc main_arg0)) (U (Proc.devRef .tc main_arg1)) := s3_messages' U

/-- The messages summed into their target nodes. -/
theorem s4_sum (U : Valuation τ sig (Elt F)) :
    StableHlo.after hostOps0_4 U (Proc.devRef .tc main_v9)
      = sumInto (U (Proc.devRef .tc main_arg2)) (U (Proc.devRef .tc main_v6)) := by
  simp only [hostOps0_4]
  after_results_simp <;> (unfold sumInto; rfl)

/-- The first layer's own-feature matrix, transposed. -/
theorem s4_ws (U : Valuation τ sig (Elt F)) :
    StableHlo.after hostOps0_4 U (Proc.devRef .tc main_v10)
      = transpose S128x128 [1, 0] (U (Proc.devRef .tc main_arg3)) transposes_S128x128_S128x128_1_0 := by
  simp only [hostOps0_4]
  after_results_simp <;> rfl

/-- The first layer's neighbour matrix, transposed. -/
theorem s4_wn (U : Valuation τ sig (Elt F)) :
    StableHlo.after hostOps0_4 U (Proc.devRef .tc main_v11)
      = transpose S128x128 [1, 0] (U (Proc.devRef .tc main_arg4)) transposes_S128x128_S128x128_1_0 := by
  simp only [hostOps0_4]
  after_results_simp <;> rfl

/-- The first layer's bias as a row. -/
theorem s4_b (U : Valuation τ sig (Elt F)) :
    StableHlo.after hostOps0_4 U (Proc.devRef .tc main_v12)
      = shapeCast S1x128 (U (Proc.devRef .tc main_arg5)) shapeCasts_S128_S1x128 := by
  simp only [hostOps0_4]
  after_results_simp <;> rfl

/-- The guarded gather of the first stage's result. -/
theorem s5_messages' (U : Valuation τ sig (Elt F)) :
    (TRef.of (T := ⟨S1600000x128, .f32⟩) main_v14).ofBuf (StableHlo.after hostOps1 U (Proc.devRef .tc main_v14))
      = messages (U (Proc.devRef .tc main_v13)) (U (Proc.devRef .tc main_arg1)) := by
  simp only [hostOps1]
  after_results_simp
  simp only [TRef.ofBuf_toBuf]
  unfold messages rowsOf srcInRange srcPos
  rfl
theorem s5_messages (U : Valuation τ sig (Elt F)) :
    StableHlo.after hostOps1 U (Proc.devRef .tc main_v14)
      = messages (U (Proc.devRef .tc main_v13)) (U (Proc.devRef .tc main_arg1)) := s5_messages' U

/-- Those messages summed into their target nodes. -/
theorem s6_sum (U : Valuation τ sig (Elt F)) :
    StableHlo.after hostOps1_1 U (Proc.devRef .tc main_v17)
      = sumInto (U (Proc.devRef .tc main_arg2)) (U (Proc.devRef .tc main_v14)) := by
  simp only [hostOps1_1]
  after_results_simp <;> (unfold sumInto; rfl)

/-- The second layer's own-feature matrix, transposed. -/
theorem s6_ws (U : Valuation τ sig (Elt F)) :
    StableHlo.after hostOps1_1 U (Proc.devRef .tc main_v18)
      = transpose S128x128 [1, 0] (U (Proc.devRef .tc main_arg6)) transposes_S128x128_S128x128_1_0 := by
  simp only [hostOps1_1]
  after_results_simp <;> rfl

/-- The second layer's neighbour matrix, transposed. -/
theorem s6_wn (U : Valuation τ sig (Elt F)) :
    StableHlo.after hostOps1_1 U (Proc.devRef .tc main_v19)
      = transpose S128x128 [1, 0] (U (Proc.devRef .tc main_arg7)) transposes_S128x128_S128x128_1_0 := by
  simp only [hostOps1_1]
  after_results_simp <;> rfl

/-- The closing map's matrix, transposed. -/
theorem s6_w3 (U : Valuation τ sig (Elt F)) :
    StableHlo.after hostOps1_1 U (Proc.devRef .tc main_v20)
      = transpose S128x128 [1, 0] (U (Proc.devRef .tc main_arg9)) transposes_S128x128_S128x128_1_0 := by
  simp only [hostOps1_1]
  after_results_simp <;> rfl

/-- The second layer's bias as a row. -/
theorem s6_b (U : Valuation τ sig (Elt F)) :
    StableHlo.after hostOps1_1 U (Proc.devRef .tc main_v21)
      = shapeCast S1x128 (U (Proc.devRef .tc main_arg8)) shapeCasts_S128_S1x128 := by
  simp only [hostOps1_1]
  after_results_simp <;> rfl

/-- The closing map's bias as a row. -/
theorem s6_b3 (U : Valuation τ sig (Elt F)) :
    StableHlo.after hostOps1_1 U (Proc.devRef .tc main_v22)
      = shapeCast S1x128 (U (Proc.devRef .tc main_arg10)) shapeCasts_S128_S1x128 := by
  simp only [hostOps1_1]
  after_results_simp <;> rfl

end Cert.KernelIdeal.HostValue

end
-- ==== Proof.HostKept.lean ====
/-
  What the host stretches of the kernel program leave alone: no host operation writes an input, the degree column is
  written once (before either stage) and the first stage's result is not written by the host at all, so each is read
  later exactly as it was left.
-/
import proofs.«414488_j78451872629304_3_alg».proof.Proof.Gen.KernelIdeal.Launch
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- The program's eleven inputs. -/
abbrev inputs : List (Ref sig .tc) :=
  [main_arg0, main_arg1, main_arg2, main_arg3, main_arg4, main_arg5, main_arg6, main_arg7, main_arg8, main_arg9, main_arg10]

set_option maxHeartbeats 2000000

/-- No operation of this stretch writes an input. -/
theorem keeps_hostOps0 (U : Valuation τ sig (Elt F)) {b : Ref sig .tc} (hb : b ∈ inputs) :
    StableHlo.after hostOps0 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps0 U (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps0_1 (U : Valuation τ sig (Elt F)) {b : Ref sig .tc} (hb : b ∈ inputs) :
    StableHlo.after hostOps0_1 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps0_1 U (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps0_2 (U : Valuation τ sig (Elt F)) {b : Ref sig .tc} (hb : b ∈ inputs) :
    StableHlo.after hostOps0_2 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps0_2 U (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps0_3 (U : Valuation τ sig (Elt F)) {b : Ref sig .tc} (hb : b ∈ inputs) :
    StableHlo.after hostOps0_3 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps0_3 U (List.forall_iff_forall_mem.mp (by
      simp only [hostOps0_3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps0_4 (U : Valuation τ sig (Elt F)) {b : Ref sig .tc} (hb : b ∈ inputs) :
    StableHlo.after hostOps0_4 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps0_4 U (List.forall_iff_forall_mem.mp (by
      simp only [hostOps0_4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps1 (U : Valuation τ sig (Elt F)) {b : Ref sig .tc} (hb : b ∈ inputs) :
    StableHlo.after hostOps1 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps1 U (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of this stretch writes an input. -/
theorem keeps_hostOps1_1 (U : Valuation τ sig (Elt F)) {b : Ref sig .tc} (hb : b ∈ inputs) :
    StableHlo.after hostOps1_1 U (Proc.devRef .tc b) = U (Proc.devRef .tc b) := by
  simp only [inputs, List.mem_cons, List.not_mem_nil, or_false] at hb
  rcases hb with rfl | rfl | rfl | rfl | rfl | rfl | rfl | rfl | rfl | rfl | rfl <;>
    exact StableHlo.after_of_forall_not_mem hostOps1_1 U (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The gather's stretch leaves the degree column alone. -/
theorem keeps_hostOps0_3_main_v5 (U : Valuation τ sig (Elt F)) :
    StableHlo.after hostOps0_3 U (Proc.devRef .tc main_v5) = U (Proc.devRef .tc main_v5) :=
  StableHlo.after_of_forall_not_mem hostOps0_3 U (List.forall_iff_forall_mem.mp (by
      simp only [hostOps0_3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- So does the stretch that sums the messages. -/
theorem keeps_hostOps0_4_main_v5 (U : Valuation τ sig (Elt F)) :
    StableHlo.after hostOps0_4 U (Proc.devRef .tc main_v5) = U (Proc.devRef .tc main_v5) :=
  StableHlo.after_of_forall_not_mem hostOps0_4 U (List.forall_iff_forall_mem.mp (by
      simp only [hostOps0_4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second gather's stretch leaves the degree column alone. -/
theorem keeps_hostOps1_main_v5 (U : Valuation τ sig (Elt F)) :
    StableHlo.after hostOps1 U (Proc.devRef .tc main_v5) = U (Proc.devRef .tc main_v5) :=
  StableHlo.after_of_forall_not_mem hostOps1 U (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- So does the stretch that sums its messages. -/
theorem keeps_hostOps1_1_main_v5 (U : Valuation τ sig (Elt F)) :
    StableHlo.after hostOps1_1 U (Proc.devRef .tc main_v5) = U (Proc.devRef .tc main_v5) :=
  StableHlo.after_of_forall_not_mem hostOps1_1 U (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second gather's stretch reads the first stage's result and does not write it. -/
theorem keeps_hostOps1_main_v13 (U : Valuation τ sig (Elt F)) :
    StableHlo.after hostOps1 U (Proc.devRef .tc main_v13) = U (Proc.devRef .tc main_v13) :=
  StableHlo.after_of_forall_not_mem hostOps1 U (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Nor does the stretch after it. -/
theorem keeps_hostOps1_1_main_v13 (U : Valuation τ sig (Elt F)) :
    StableHlo.after hostOps1_1 U (Proc.devRef .tc main_v13) = U (Proc.devRef .tc main_v13) :=
  StableHlo.after_of_forall_not_mem hostOps1_1 U (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostValue

end
-- ==== Proof.HostK.lean ====
/-
  What the kernel program's two tiled stages are entered with, read back through the host operations to the inputs.

  Before the first stage the host computes the clamped degree column, the aggregate of the input features, and lays the
  first layer's weights out (two transposes and a bias row). Between the stages it aggregates the first stage's result
  the same way and lays out the second layer's and the closing map's weights. The degree column, computed once, is
  read by both stages; no host operation and no stage writes an input.
-/
import proofs.«414488_j78451872629304_3_alg».proof.Proof.Gen.KernelIdeal.Frame
import proofs.«414488_j78451872629304_3_alg».proof.Proof.AggK
import proofs.«414488_j78451872629304_3_alg».proof.Proof.HostStretch
import proofs.«414488_j78451872629304_3_alg».proof.Proof.HostKept
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## An input, read at each boundary between stretches and stages -/

theorem W1_input (c : Dev nD) {b : Ref sig .tc} (hb : b ∈ inputs) :
    W1 m ρ c (Proc.devRef .tc b) = m ((c : Thread nD τ).loc b) :=
  (keeps_hostOps0 (W0 m ρ c) hb).trans rfl
theorem W2_input (c : Dev nD) {b : Ref sig .tc} (hb : b ∈ inputs) :
    W2 m ρ c (Proc.devRef .tc b) = m ((c : Thread nD τ).loc b) :=
  (keeps_hostOps0_1 (W1 m ρ c) hb).trans (W1_input m ρ c hb)
theorem W3_input (c : Dev nD) {b : Ref sig .tc} (hb : b ∈ inputs) :
    W3 m ρ c (Proc.devRef .tc b) = m ((c : Thread nD τ).loc b) :=
  (keeps_hostOps0_2 (W2 m ρ c) hb).trans (W2_input m ρ c hb)
theorem W4_input (c : Dev nD) {b : Ref sig .tc} (hb : b ∈ inputs) :
    W4 m ρ c (Proc.devRef .tc b) = m ((c : Thread nD τ).loc b) :=
  (keeps_hostOps0_3 (W3 m ρ c) hb).trans (W3_input m ρ c hb)
theorem W5_input (c : Dev nD) {b : Ref sig .tc} (hb : b ∈ inputs) :
    W5 m ρ c (Proc.devRef .tc b) = m ((c : Thread nD τ).loc b) :=
  (keeps_hostOps0_4 (W4 m ρ c) hb).trans (W4_input m ρ c hb)
/-- An input that is no array of the first stage is as launched after it too. -/
theorem W6_input (c : Dev nD) {b : Ref sig .tc} (hb : b ∈ inputs) (hne : ∀ w, Pipeline.arrRef spec0 w ≠ b) :
    W6 m ρ c (Proc.devRef .tc b) = m ((c : Thread nD τ).loc b) :=
  (W6_of_ne m ρ c b hne).trans (W5_input m ρ c hb)
theorem W7_input (c : Dev nD) {b : Ref sig .tc} (hb : b ∈ inputs) (hne : ∀ w, Pipeline.arrRef spec0 w ≠ b) :
    W7 m ρ c (Proc.devRef .tc b) = m ((c : Thread nD τ).loc b) :=
  (keeps_hostOps1 (W6 m ρ c) hb).trans (W6_input m ρ c hb hne)

/-! ## The first stage's arrays -/

theorem V5_arg0 (c : Dev nD) : V5 m ρ c main_arg0
    = m ((c : Thread nD τ).loc main_arg0) :=
  W5_input m ρ c (by decide)

theorem V5_v9 (c : Dev nD) : V5 m ρ c main_v9
    = aggK (m ((c : Thread nD τ).loc main_arg0)) (m ((c : Thread nD τ).loc main_arg1)) (m ((c : Thread nD τ).loc main_arg2)) := by
  show StableHlo.after hostOps0_4 (W4 m ρ c) (Proc.devRef .tc main_v9) = _
  rw [s4_sum]
  show sumInto (W4 m ρ c (Proc.devRef .tc main_arg2)) (StableHlo.after hostOps0_3 (W3 m ρ c) (Proc.devRef .tc main_v6)) = _
  rw [s3_messages, W4_input m ρ c (b := main_arg2) (by decide), W3_input m ρ c (b := main_arg0) (by decide),
    W3_input m ρ c (b := main_arg1) (by decide)]
  rfl

/-- The degree column as the third stretch leaves it. -/
theorem W3_v5 (c : Dev nD) : W3 m ρ c (Proc.devRef .tc main_v5) = degK (m ((c : Thread nD τ).loc main_arg2)) := by
  show StableHlo.after hostOps0_2 (W2 m ρ c) (Proc.devRef .tc main_v5) = _
  rw [s2_column]
  show broadcastInDim S100000x1 ![0] bcast_S100000_S100000x1_0 (StableHlo.after hostOps0_1 (W1 m ρ c) (Proc.devRef .tc main_v4)) = _
  rw [s1_clamped]
  show broadcastInDim S100000x1 ![0] bcast_S100000_S100000x1_0
    (maximumf (broadcastInDim S100000 ![] bcast_S_S100000 (id (StableHlo.after hostOps0 (W0 m ρ c) (Proc.devRef .tc main_cst_1))))
      (StableHlo.after hostOps0 (W0 m ρ c) (Proc.devRef .tc main_v3))) = _
  rw [s0_one, s0_rawDeg]
  unfold degK rawDeg
  rfl

theorem V5_v5 (c : Dev nD) : V5 m ρ c main_v5
    = degK (m ((c : Thread nD τ).loc main_arg2)) :=
  (keeps_hostOps0_4_main_v5 (W4 m ρ c)).trans ((keeps_hostOps0_3_main_v5 (W3 m ρ c)).trans (W3_v5 m ρ c))

theorem V5_v10 (c : Dev nD) : V5 m ρ c main_v10
    = transpose S128x128 [1, 0] (m ((c : Thread nD τ).loc main_arg3)) transposes_S128x128_S128x128_1_0 := by
  show StableHlo.after hostOps0_4 (W4 m ρ c) (Proc.devRef .tc main_v10) = _
  rw [s4_ws, W4_input m ρ c (b := main_arg3) (by decide)]

theorem V5_v11 (c : Dev nD) : V5 m ρ c main_v11
    = transpose S128x128 [1, 0] (m ((c : Thread nD τ).loc main_arg4)) transposes_S128x128_S128x128_1_0 := by
  show StableHlo.after hostOps0_4 (W4 m ρ c) (Proc.devRef .tc main_v11) = _
  rw [s4_wn, W4_input m ρ c (b := main_arg4) (by decide)]

theorem V5_v12 (c : Dev nD) : V5 m ρ c main_v12
    = shapeCast S1x128 (m ((c : Thread nD τ).loc main_arg5)) shapeCasts_S128_S1x128 := by
  show StableHlo.after hostOps0_4 (W4 m ρ c) (Proc.devRef .tc main_v12) = _
  rw [s4_b, W4_input m ρ c (b := main_arg5) (by decide)]

/-! ## The second stage's arrays -/

/-- The first stage's result, as the first stage leaves it. -/
theorem W6_v13 (c : Dev nD) : W6 m ρ c (Proc.devRef .tc main_v13) = (dat0 (V5 m ρ) c).arrAt 6 cfg0.N :=
  W6_arr m ρ c 6

theorem V8_v13 (c : Dev nD) : V8 m ρ c main_v13
    = (dat0 (V5 m ρ) c).arrAt 6 cfg0.N :=
  (keeps_hostOps1_1_main_v13 (W7 m ρ c)).trans ((keeps_hostOps1_main_v13 (W6 m ρ c)).trans (W6_v13 m ρ c))

theorem V8_v17 (c : Dev nD) : V8 m ρ c main_v17
    = aggK ((dat0 (V5 m ρ) c).arrAt 6 cfg0.N) (m ((c : Thread nD τ).loc main_arg1)) (m ((c : Thread nD τ).loc main_arg2)) := by
  show StableHlo.after hostOps1_1 (W7 m ρ c) (Proc.devRef .tc main_v17) = _
  rw [s6_sum]
  show sumInto (W7 m ρ c (Proc.devRef .tc main_arg2)) (StableHlo.after hostOps1 (W6 m ρ c) (Proc.devRef .tc main_v14)) = _
  rw [s5_messages, W7_input m ρ c (b := main_arg2) (by decide) (by decide), W6_v13,
    W6_input m ρ c (b := main_arg1) (by decide) (by decide)]
  rfl

theorem V8_v5 (c : Dev nD) : V8 m ρ c main_v5
    = degK (m ((c : Thread nD τ).loc main_arg2)) :=
  (keeps_hostOps1_1_main_v5 (W7 m ρ c)).trans ((keeps_hostOps1_main_v5 (W6 m ρ c)).trans
    ((W6_arr m ρ c 2).trans (((dat0 (V5 m ρ) c).arrAt_in 2 rfl _).trans ((A_eq0 (V5 m ρ) c 2).trans (V5_v5 m ρ c)))))

theorem V8_v18 (c : Dev nD) : V8 m ρ c main_v18
    = transpose S128x128 [1, 0] (m ((c : Thread nD τ).loc main_arg6)) transposes_S128x128_S128x128_1_0 := by
  show StableHlo.after hostOps1_1 (W7 m ρ c) (Proc.devRef .tc main_v18) = _
  rw [s6_ws, W7_input m ρ c (b := main_arg6) (by decide) (by decide)]

theorem V8_v19 (c : Dev nD) : V8 m ρ c main_v19
    = transpose S128x128 [1, 0] (m ((c : Thread nD τ).loc main_arg7)) transposes_S128x128_S128x128_1_0 := by
  show StableHlo.after hostOps1_1 (W7 m ρ c) (Proc.devRef .tc main_v19) = _
  rw [s6_wn, W7_input m ρ c (b := main_arg7) (by decide) (by decide)]

theorem V8_v20 (c : Dev nD) : V8 m ρ c main_v20
    = transpose S128x128 [1, 0] (m ((c : Thread nD τ).loc main_arg9)) transposes_S128x128_S128x128_1_0 := by
  show StableHlo.after hostOps1_1 (W7 m ρ c) (Proc.devRef .tc main_v20) = _
  rw [s6_w3, W7_input m ρ c (b := main_arg9) (by decide) (by decide)]

theorem V8_v21 (c : Dev nD) : V8 m ρ c main_v21
    = shapeCast S1x128 (m ((c : Thread nD τ).loc main_arg8)) shapeCasts_S128_S1x128 := by
  show StableHlo.after hostOps1_1 (W7 m ρ c) (Proc.devRef .tc main_v21) = _
  rw [s6_b, W7_input m ρ c (b := main_arg8) (by decide) (by decide)]

theorem V8_v22 (c : Dev nD) : V8 m ρ c main_v22
    = shapeCast S1x128 (m ((c : Thread nD τ).loc main_arg10)) shapeCasts_S128_S1x128 := by
  show StableHlo.after hostOps1_1 (W7 m ρ c) (Proc.devRef .tc main_v22) = _
  rw [s6_b3, W7_input m ρ c (b := main_arg10) (by decide) (by decide)]

end Cert.KernelIdeal.HostValue

end
-- ==== Proof.Spec.lean ====
/-
  Two mean-aggregating graph layers and a closing linear map, written as functions of whole arrays, entry by entry,
  on the extended reals.

  A node's COMBINE, at output feature `j`, is
      ( Σₖ h[r,k] · Ws[k,j]  +  Σₖ (s[r,k] / d[r,0]) · Wn[k,j] )  +  b[0,j] :
  the node's own features through one matrix, the sum of its in-neighbours' features divided by the (clamped)
  in-degree through another, and a bias row. Every entry of the result at node `r` reads only row `r` of `h`, `s`
  and `d`: that row-locality is what lets a tiling of the node axis compute the whole array block by block.
  The first layer clamps the combine below at zero; the second feeds its combine, un-clamped, through a third
  matrix and adds a second bias row.
-/
import Idealize.ShloMosaic.PureOps.Ideal
import Idealize.ShloMosaic.Lib.ValueIdx

noncomputable section

namespace Cert.Sage

open Idealize.ShloMosaic Idealize.ShloMosaic.ValueIdx

/-- `n` nodes by 128 features. -/
abbrev Nodes (n : Nat) : Shape := ⟨2, ![n, 128]⟩
/-- One number per node, kept as a column. -/
abbrev Col (n : Nat) : Shape := ⟨2, ![n, 1]⟩
/-- A square weight matrix, laid out input feature by output feature. -/
abbrev Sq : Shape := ⟨2, ![128, 128]⟩
/-- A bias, kept as a row. -/
abbrev Row : Shape := ⟨2, ![1, 128]⟩

/-- The zero the first layer clamps at: the all-zero word read as a number. -/
abbrev zeroWord : EReal := Ideal.ofBits .f32 0x00000000#32

/-- The combine of node `r` at output feature `j`. -/
def combAt {n : Nat} (h s : (Nodes n).Idx → EReal) (d : (Col n).Idx → EReal) (ws wn : Sq.Idx → EReal)
    (b : Row.Idx → EReal) (r : Fin n) (j : Fin 128) : EReal :=
  ((∑ k : Fin 128, h (ix2 r k) * ws (ix2 k j))
    + (∑ k : Fin 128, Ideal.div (s (ix2 r k)) (d (ix2 r (0 : Fin 1))) * wn (ix2 k j)))
  + b (ix2 (0 : Fin 1) j)

/-- The first layer: the combine clamped below at zero. -/
def layer1 {n : Nat} (h s : (Nodes n).Idx → EReal) (d : (Col n).Idx → EReal) (ws wn : Sq.Idx → EReal)
    (b : Row.Idx → EReal) : (Nodes n).Idx → EReal :=
  fun i => max (combAt h s d ws wn b (i 0) (i 1)) zeroWord

/-- The second layer and the closing linear map: the combine, through `w3`, plus `b3`. -/
def layer2 {n : Nat} (h s : (Nodes n).Idx → EReal) (d : (Col n).Idx → EReal) (ws wn : Sq.Idx → EReal)
    (b : Row.Idx → EReal) (w3 : Sq.Idx → EReal) (b3 : Row.Idx → EReal) : (Nodes n).Idx → EReal :=
  fun i => (∑ k : Fin 128, combAt h s d ws wn b (i 0) k * w3 (ix2 k (i 1))) + b3 (ix2 (0 : Fin 1) (i 1))

/-- The combine at a node depends on the node arrays only through that node's row: two triples of arrays that
    agree on row `r` (of one) and row `r'` (of the other) have the same combine there. -/
theorem combAt_congr {n n' : Nat} {h s : (Nodes n).Idx → EReal} {d : (Col n).Idx → EReal}
    {h' s' : (Nodes n').Idx → EReal} {d' : (Col n').Idx → EReal} (ws wn : Sq.Idx → EReal) (b : Row.Idx → EReal)
    {r : Fin n} {r' : Fin n'} (hh : ∀ k : Fin 128, h (ix2 r k) = h' (ix2 r' k))
    (hs : ∀ k : Fin 128, s (ix2 r k) = s' (ix2 r' k)) (hd : d (ix2 r (0 : Fin 1)) = d' (ix2 r' (0 : Fin 1)))
    (j : Fin 128) : combAt h s d ws wn b r j = combAt h' s' d' ws wn b r' j := by
  unfold combAt
  simp only [hh, hs, hd]

end Cert.Sage

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.Body.lean ====
/-
  The two tiled stages' arithmetic, read entry by entry on the extended reals.

  A stage loads a block of 2000 nodes (their features, their aggregate, their clamped degree) and the weight
  matrices, and stores one block. Changes of float format are the identity on the extended reals and a matrix
  product into a zero accumulator is the plain sum over the contracted axis, so the first stage's stored block is
  the first layer of those 2000 nodes and the second stage's is the second layer with the closing linear map.
-/
import proofs.«414488_j78451872629304_3_alg».proof.Proof.Gen.KernelIdeal.Skeleton
import proofs.«414488_j78451872629304_3_alg».proof.Proof.Spec
import proofs.«414488_j78451872629304_3_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx

/-! ## A matrix product into a zero accumulator, read at an entry -/

/-- The left operand's index of the product at output `i` and contraction index `q` keeps the output's row. -/
theorem mm_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the contraction index. -/
theorem mm_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction index. -/
theorem mm_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem mm_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into the zero accumulator, read at `(p, q)`: the sum over the 128 inner positions of
    the left operand's row `p` times the right operand's column `q`. -/
theorem mm_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-! ## The two stored blocks -/

/-- The first stage's stored block is the first layer of the block's nodes. -/
theorem pay0_eq (v0 v1 : Vec Ideal S2000x128 .f32) (v3 : Vec Ideal S2000x1 .f32) (v9 v12 : Vec Ideal S128x128 .f32)
    (v18 : Vec Ideal S1x128 .f32) :
    k0_pay1 (F := Ideal) v0 v1 v3 v9 v12 v18 = Cert.Sage.layer1 (n := 2000) v0 v1 v3 v9 v12 v18 := by
  funext j
  obtain ⟨p, q, rfl⟩ : ∃ (p : Fin 2000) (q : Fin 128), j = ix2 p q := ⟨j 0, j 1, eq_ix2 j⟩
  unfold k0_pay1 Cert.Sage.layer1 Cert.Sage.combAt
  simp only [shapeCast_self]
  rw [maximumf_apply, addf_apply, addf_apply, mm_apply, mm_apply, broadcastTo_1b_ab_apply, broadcast_apply]
  simp only [truncf_apply, divf_apply, Cert.LibKeepdims.broadcastTo_a1_ab_apply]
  rfl

/-- The second stage's stored block is the second layer, through the closing linear map, of the block's nodes. -/
theorem pay1_eq (v0 v2 : Vec Ideal S2000x128 .f32) (v4 : Vec Ideal S2000x1 .f32) (v10 v13 : Vec Ideal S128x128 .f32)
    (v19 : Vec Ideal S1x128 .f32) (v24 : Vec Ideal S128x128 .f32) (v28 : Vec Ideal S1x128 .f32) :
    k1_pay1 (F := Ideal) v0 v2 v4 v10 v13 v19 v24 v28
      = Cert.Sage.layer2 (n := 2000) v0 v2 v4 v10 v13 v19 v24 v28 := by
  funext j
  obtain ⟨p, q, rfl⟩ : ∃ (p : Fin 2000) (q : Fin 128), j = ix2 p q := ⟨j 0, j 1, eq_ix2 j⟩
  unfold k1_pay1 Cert.Sage.layer2 Cert.Sage.combAt
  simp only [shapeCast_self]
  rw [addf_apply, mm_apply, broadcastTo_1b_ab_apply]
  simp only [truncf_apply, addf_apply, mm_apply, broadcastTo_1b_ab_apply, divf_apply,
    Cert.LibKeepdims.broadcastTo_a1_ab_apply]

end Cert.KernelIdeal.BodyValue

end
-- ==== Proof.Region0.lean ====
/-
  The first tiled stage, from blocks to the whole array: it leaves the first layer of the arrays it reads.

  The node axis is cut into 50 blocks of 2000 nodes; grid point `t` reads block `t` of the three node arrays and the
  whole of every weight array, and writes block `t` of the result. Because an entry of a layer at a node reads only that
  node's rows, block `t` of the layer of the whole arrays IS the layer of the blocks; the 50 blocks tile the array, so
  the array the stage leaves is the layer of the arrays the stage was entered with — whatever those are: the statement
  is over any contents `V` at the stage's entry, as the generated frame's own data are.
-/
import proofs.«414488_j78451872629304_3_alg».proof.Proof.Gen.KernelIdeal.Frame
import proofs.«414488_j78451872629304_3_alg».proof.Proof.Body
import proofs.«414488_j78451872629304_3_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## Grid facts -/

/-- The zero offsets of a whole-block access, in the spelling a load or store through the whole block carries. -/
theorem zeroOffsets0 : (![0, 0] : Fin 2 → Nat) = fun _ => 0 :=
  funext fun a => by match a with | ⟨0, _⟩ => rfl | ⟨1, _⟩ => rfl

/-- The block index maps over the 50 grid points: the three node windows and the result window sit at block t of the
    node axis, the weight windows at their one whole block. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The layer of a block of rows -/

/-- An entry of the first layer at a node reads only that node's rows: if row p of three small arrays is row r of
    three large ones, the layers agree there, feature by feature. -/
theorem layer1_row {h s : (Sage.Nodes 2000).Idx → EReal} {d : (Sage.Col 2000).Idx → EReal}
    {H S : (Sage.Nodes 100000).Idx → EReal} {D : (Sage.Col 100000).Idx → EReal}
    (ws wn : Sage.Sq.Idx → EReal) (b : Sage.Row.Idx → EReal) (p : Fin 2000) (r : Fin 100000) (q : Fin 128)
    (hh : ∀ k : Fin 128, h (ix2 p k) = H (ix2 r k)) (hs : ∀ k : Fin 128, s (ix2 p k) = S (ix2 r k))
    (hd : d (ix2 p (0 : Fin 1)) = D (ix2 r (0 : Fin 1))) :
    Sage.layer1 h s d ws wn b (ix2 p q) = Sage.layer1 H S D ws wn b (ix2 r q) := by
  unfold Sage.layer1
  exact congrArg (fun x => max x Sage.zeroWord) (Sage.combAt_congr ws wn b hh hs hd q)

/-! ## The windows' blocks, read off the arrays -/

/-- Block t of the node features: row p of the block is row 2000 t + p of the array. -/
theorem featBlock0 (c : Dev nD) (t : Fin cfg0.N) (p : Fin 2000) (k : Fin 128) (r : Fin 100000)
    (hr : r.val = t.val * 2000 + p.val) :
    (iblk0 V c 0 t : S2000x128.Idx → EReal) (ix2 p k) = (V c main_arg0 : S100000x128.Idx → EReal) (ix2 r k) := by
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; rw [(blockIndex0 t).1]; omega
  | ⟨1, _⟩ => show win0_0.index t (1 : Fin 2) * 128 + 1 * k.val = k.val; rw [(blockIndex0 t).2.1]; omega

/-- Block t of the neighbour sums: row p of the block is row 2000 t + p of the array. -/
theorem aggBlock0 (c : Dev nD) (t : Fin cfg0.N) (p : Fin 2000) (k : Fin 128) (r : Fin 100000)
    (hr : r.val = t.val * 2000 + p.val) :
    (iblk0 V c 1 t : S2000x128.Idx → EReal) (ix2 p k) = (V c main_v9 : S100000x128.Idx → EReal) (ix2 r k) := by
  show V c main_v9 (((cfg0.win 1).blk t).view.emb (ix2 p k)) = V c main_v9 (ix2 r k)
  refine congrArg _ (funext fun a => Fin.ext ?_)
  match a with
  | ⟨0, _⟩ => show win0_1.index t (0 : Fin 2) * 2000 + 1 * p.val = r.val; rw [(blockIndex0 t).2.2.1]; omega
  | ⟨1, _⟩ => show win0_1.index t (1 : Fin 2) * 128 + 1 * k.val = k.val; rw [(blockIndex0 t).2.2.2.1]; omega

/-- Block t of the degree column: entry p of the block is entry 2000 t + p of the column. -/
theorem degBlock0 (c : Dev nD) (t : Fin cfg0.N) (p : Fin 2000) (r : Fin 100000)
    (hr : r.val = t.val * 2000 + p.val) :
    (iblk0 V c 2 t : S2000x1.Idx → EReal) (ix2 p (0 : Fin 1)) = (V c main_v5 : S100000x1.Idx → EReal) (ix2 r (0 : Fin 1)) := by
  show V c main_v5 (((cfg0.win 2).blk t).view.emb (ix2 p (0 : Fin 1))) = V c main_v5 (ix2 r (0 : Fin 1))
  refine congrArg _ (funext fun a => Fin.ext ?_)
  match a with
  | ⟨0, _⟩ => show win0_2.index t (0 : Fin 2) * 2000 + 1 * p.val = r.val; rw [(blockIndex0 t).2.2.2.2.1]; omega
  | ⟨1, _⟩ => show win0_2.index t (1 : Fin 2) * 1 + 1 * 0 = 0; rw [(blockIndex0 t).2.2.2.2.2.1]

/-- The self-weight window's one block is the whole matrix. -/
theorem selfWeightBlock0 (c : Dev nD) (t : Fin cfg0.N) :
    (iblk0 V c 3 t : S128x128.Idx → EReal) = V c main_v10 := by
  funext y
  show V c main_v10 (((cfg0.win 3).blk t).view.emb y) = V c main_v10 y
  refine congrArg _ (funext fun a => Fin.ext ?_)
  match a with
  | ⟨0, _⟩ => show win0_3.index t (0 : Fin 2) * 128 + 1 * (y 0).val = (y 0).val; rw [(blockIndex0 t).2.2.2.2.2.2.1]; omega
  | ⟨1, _⟩ => show win0_3.index t (1 : Fin 2) * 128 + 1 * (y 1).val = (y 1).val; rw [(blockIndex0 t).2.2.2.2.2.2.2.1]; omega

/-- The neighbour-weight window's one block is the whole matrix. -/
theorem nbrWeightBlock0 (c : Dev nD) (t : Fin cfg0.N) :
    (iblk0 V c 4 t : S128x128.Idx → EReal) = V c main_v11 := by
  funext y
  show V c main_v11 (((cfg0.win 4).blk t).view.emb y) = V c main_v11 y
  refine congrArg _ (funext fun a => Fin.ext ?_)
  match a with
  | ⟨0, _⟩ => show win0_4.index t (0 : Fin 2) * 128 + 1 * (y 0).val = (y 0).val; rw [(blockIndex0 t).2.2.2.2.2.2.2.2.1]; omega
  | ⟨1, _⟩ => show win0_4.index t (1 : Fin 2) * 128 + 1 * (y 1).val = (y 1).val; rw [(blockIndex0 t).2.2.2.2.2.2.2.2.2.1]; omega

/-- The bias window's one block is the whole row. -/
theorem biasBlock0 (c : Dev nD) (t : Fin cfg0.N) :
    (iblk0 V c 5 t : S1x128.Idx → EReal) = V c main_v12 := by
  funext y
  show V c main_v12 (((cfg0.win 5).blk t).view.emb y) = V c main_v12 y
  refine congrArg _ (funext fun a => Fin.ext ?_)
  match a with
  | ⟨0, _⟩ => show win0_5.index t (0 : Fin 2) * 1 + 1 * (y 0).val = (y 0).val; rw [(blockIndex0 t).2.2.2.2.2.2.2.2.2.2.1]; omega
  | ⟨1, _⟩ => show win0_5.index t (1 : Fin 2) * 128 + 1 * (y 1).val = (y 1).val; rw [(blockIndex0 t).2.2.2.2.2.2.2.2.2.2.2.1]; omega

/-! ## What a grid point writes back -/

/-- Grid point t writes back block t of the first layer of the arrays the stage was entered with. -/
theorem writtenBlock0 (c : Dev nD) (t : Fin cfg0.N) :
    (dat0 (F := Ideal) V c).flushed 6 t = ((cfg0.win 6).blk t).view.read (Elt Ideal)
      (Sage.layer1 (n := 100000) (V c main_arg0) (V c main_v9) (V c main_v5) (V c main_v10) (V c main_v11) (V c main_v12)) := by
  show (cfg0.win 6).cut (grid0.coords t) ((dat0 V c).after 6 t) = _
  rw [after0_6]
  unfold out0_6
  rw [View.canon_unit_zero zeroOffsets0]
  simp only [View.ld_unit_zero (S := S2000x128) zeroOffsets0, View.ld_unit_zero (S := S2000x1) zeroOffsets0,
    View.ld_unit_zero (S := S128x128) zeroOffsets0, View.ld_unit_zero (S := S1x128) zeroOffsets0]
  rw [BodyValue.pay0_eq, selfWeightBlock0 V c t, nbrWeightBlock0 V c t, biasBlock0 V c t]
  refine funext fun (j : S2000x128.Idx) => ?_
  obtain ⟨p, q, rfl⟩ : ∃ (p : Fin 2000) (q : Fin 128), j = ix2 p q := ⟨j 0, j 1, eq_ix2 j⟩
  have ht : t.val < 50 := t.isLt
  have hp : p.val < 2000 := p.isLt
  have hr : t.val * 2000 + p.val < 100000 := by omega
  have hi : ((cfg0.win 6).blk t).view.emb (ix2 p q) = (ix2 (⟨t.val * 2000 + p.val, hr⟩ : Fin 100000) q : S100000x128.Idx) := by
    funext a; apply Fin.ext
    match a with
    | ⟨0, _⟩ => show win0_6.index t (0 : Fin 2) * 2000 + 1 * p.val = t.val * 2000 + p.val; rw [(blockIndex0 t).2.2.2.2.2.2.2.2.2.2.2.2.1]; omega
    | ⟨1, _⟩ => show win0_6.index t (1 : Fin 2) * 128 + 1 * q.val = q.val; rw [(blockIndex0 t).2.2.2.2.2.2.2.2.2.2.2.2.2]; omega
  show Sage.layer1 (iblk0 V c 0 t) (iblk0 V c 1 t) (iblk0 V c 2 t) (V c main_v10) (V c main_v11) (V c main_v12) (ix2 p q)
    = Sage.layer1 (n := 100000) (V c main_arg0) (V c main_v9) (V c main_v5) (V c main_v10) (V c main_v11) (V c main_v12) (((cfg0.win 6).blk t).view.emb (ix2 p q))
  rw [hi]
  exact layer1_row (V c main_v10) (V c main_v11) (V c main_v12) p ⟨t.val * 2000 + p.val, hr⟩ q
    (fun k => featBlock0 V c t p k _ rfl) (fun k => aggBlock0 V c t p k _ rfl) (degBlock0 V c t p _ rfl)

/-! ## The blocks tile the array -/

/-- An index of the array is in point t's block iff each coordinate is in the block's range on its axis. -/
theorem mem_block0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v13).slice (win0_6.rect t)).set ↔ _
  rw [View.set_slice_whole, Rect.mem_set_unit]
  exact Iff.rfl

/-- Every node's row lies in the block of the grid point its node number divided by 2000 names. -/
theorem covered0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 2000 < cfg0.N := by show (i 0).val / 2000 < 50; omega
  obtain ⟨t, ht⟩ : ∃ t : Fin cfg0.N, t.val = (i 0).val / 2000 := ⟨⟨_, hlt⟩, rfl⟩
  refine ⟨t, flush0_6 t, ?_⟩
  rw [mem_block0]
  obtain ⟨-, -, -, -, -, -, -, -, -, -, -, -, e0, e1⟩ := blockIndex0 t
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 128 ≤ (i 1).val ∧ (i 1).val < win0_6.index t (1 : Fin 2) * 128 + 128; rw [e1]; omega

/-- THE ARRAY the stage leaves: the layer of the arrays it was entered with. -/
theorem final0 (c : Dev nD) :
    (dat0 (F := Ideal) V c).arrAt 6 cfg0.N
      = Cert.Sage.layer1 (n := 100000) (V c main_arg0) (V c main_v9) (V c main_v5) (V c main_v10) (V c main_v11) (V c main_v12) :=
  (dat0 (F := Ideal) V c).arrAt_eq_of_cover 6 _ (fun t _ => writtenBlock0 V c t) covered0

end Cert.KernelIdeal.RegionValue

end
-- ==== Proof.Region1.lean ====
/-
  The second tiled stage, from blocks to the whole array: it leaves the second layer, through the closing linear map, of the arrays it reads.

  The node axis is cut into 50 blocks of 2000 nodes; grid point `t` reads block `t` of the three node arrays and the
  whole of every weight array, and writes block `t` of the result. Because an entry of a layer at a node reads only that
  node's rows, block `t` of the layer of the whole arrays IS the layer of the blocks; the 50 blocks tile the array, so
  the array the stage leaves is the layer of the arrays the stage was entered with — whatever those are: the statement
  is over any contents `V` at the stage's entry, as the generated frame's own data are.
-/
import proofs.«414488_j78451872629304_3_alg».proof.Proof.Gen.KernelIdeal.Frame
import proofs.«414488_j78451872629304_3_alg».proof.Proof.Body
import proofs.«414488_j78451872629304_3_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## Grid facts -/

/-- The zero offsets of a whole-block access, in the spelling a load or store through the whole block carries. -/
theorem zeroOffsets1 : (![0, 0] : Fin 2 → Nat) = fun _ => 0 :=
  funext fun a => by match a with | ⟨0, _⟩ => rfl | ⟨1, _⟩ => rfl

/-- The block index maps over the 50 grid points: the three node windows sit at block t of the node axis, the five
    weight windows at their one whole block. -/
theorem inputBlockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The result window sits at block t of the node axis. -/
theorem resultBlockIndex1 : ∀ t : Fin cfg1.N,
    win1_8.index t (0 : Fin 2) = t.val ∧ win1_8.index t (1 : Fin 2) = 0 :=
  (by decide +kernel : ∀ t : Fin grid1.N, _)

/-! ## The layer of a block of rows -/

/-- An entry of the second layer, through the closing map, at a node reads only that node's rows: if row p of three
    small arrays is row r of three large ones, the layers agree there, feature by feature. -/
theorem layer2_row {h s : (Sage.Nodes 2000).Idx → EReal} {d : (Sage.Col 2000).Idx → EReal}
    {H S : (Sage.Nodes 100000).Idx → EReal} {D : (Sage.Col 100000).Idx → EReal}
    (ws wn : Sage.Sq.Idx → EReal) (b : Sage.Row.Idx → EReal) (w3 : Sage.Sq.Idx → EReal) (b3 : Sage.Row.Idx → EReal)
    (p : Fin 2000) (r : Fin 100000) (q : Fin 128)
    (hh : ∀ k : Fin 128, h (ix2 p k) = H (ix2 r k)) (hs : ∀ k : Fin 128, s (ix2 p k) = S (ix2 r k))
    (hd : d (ix2 p (0 : Fin 1)) = D (ix2 r (0 : Fin 1))) :
    Sage.layer2 h s d ws wn b w3 b3 (ix2 p q) = Sage.layer2 H S D ws wn b w3 b3 (ix2 r q) := by
  unfold Sage.layer2
  exact congrArg (fun x => x + b3 (ix2 (0 : Fin 1) q))
    (Finset.sum_congr rfl fun k _ => congrArg (fun x => x * w3 (ix2 k q)) (Sage.combAt_congr ws wn b hh hs hd k))

/-! ## The windows' blocks, read off the arrays -/

/-- Block t of the first layer's features: row p of the block is row 2000 t + p of the array. -/
theorem featBlock1 (c : Dev nD) (t : Fin cfg1.N) (p : Fin 2000) (k : Fin 128) (r : Fin 100000)
    (hr : r.val = t.val * 2000 + p.val) :
    (iblk1 V c 0 t : S2000x128.Idx → EReal) (ix2 p k) = (V c main_v13 : S100000x128.Idx → EReal) (ix2 r k) := by
  show V c main_v13 (((cfg1.win 0).blk t).view.emb (ix2 p k)) = V c main_v13 (ix2 r k)
  refine congrArg _ (funext fun a => Fin.ext ?_)
  match a with
  | ⟨0, _⟩ => show win1_0.index t (0 : Fin 2) * 2000 + 1 * p.val = r.val; rw [(inputBlockIndex1 t).1]; omega
  | ⟨1, _⟩ => show win1_0.index t (1 : Fin 2) * 128 + 1 * k.val = k.val; rw [(inputBlockIndex1 t).2.1]; omega

/-- Block t of the neighbour sums: row p of the block is row 2000 t + p of the array. -/
theorem aggBlock1 (c : Dev nD) (t : Fin cfg1.N) (p : Fin 2000) (k : Fin 128) (r : Fin 100000)
    (hr : r.val = t.val * 2000 + p.val) :
    (iblk1 V c 1 t : S2000x128.Idx → EReal) (ix2 p k) = (V c main_v17 : S100000x128.Idx → EReal) (ix2 r k) := by
  show V c main_v17 (((cfg1.win 1).blk t).view.emb (ix2 p k)) = V c main_v17 (ix2 r k)
  refine congrArg _ (funext fun a => Fin.ext ?_)
  match a with
  | ⟨0, _⟩ => show win1_1.index t (0 : Fin 2) * 2000 + 1 * p.val = r.val; rw [(inputBlockIndex1 t).2.2.1]; omega
  | ⟨1, _⟩ => show win1_1.index t (1 : Fin 2) * 128 + 1 * k.val = k.val; rw [(inputBlockIndex1 t).2.2.2.1]; omega

/-- Block t of the degree column: entry p of the block is entry 2000 t + p of the column. -/
theorem degBlock1 (c : Dev nD) (t : Fin cfg1.N) (p : Fin 2000) (r : Fin 100000)
    (hr : r.val = t.val * 2000 + p.val) :
    (iblk1 V c 2 t : S2000x1.Idx → EReal) (ix2 p (0 : Fin 1)) = (V c main_v5 : S100000x1.Idx → EReal) (ix2 r (0 : Fin 1)) := by
  show V c main_v5 (((cfg1.win 2).blk t).view.emb (ix2 p (0 : Fin 1))) = V c main_v5 (ix2 r (0 : Fin 1))
  refine congrArg _ (funext fun a => Fin.ext ?_)
  match a with
  | ⟨0, _⟩ => show win1_2.index t (0 : Fin 2) * 2000 + 1 * p.val = r.val; rw [(inputBlockIndex1 t).2.2.2.2.1]; omega
  | ⟨1, _⟩ => show win1_2.index t (1 : Fin 2) * 1 + 1 * 0 = 0; rw [(inputBlockIndex1 t).2.2.2.2.2.1]

/-- The self-weight window's one block is the whole matrix. -/
theorem selfWeightBlock1 (c : Dev nD) (t : Fin cfg1.N) :
    (iblk1 V c 3 t : S128x128.Idx → EReal) = V c main_v18 := by
  funext y
  show V c main_v18 (((cfg1.win 3).blk t).view.emb y) = V c main_v18 y
  refine congrArg _ (funext fun a => Fin.ext ?_)
  match a with
  | ⟨0, _⟩ => show win1_3.index t (0 : Fin 2) * 128 + 1 * (y 0).val = (y 0).val; rw [(inputBlockIndex1 t).2.2.2.2.2.2.1]; omega
  | ⟨1, _⟩ => show win1_3.index t (1 : Fin 2) * 128 + 1 * (y 1).val = (y 1).val; rw [(inputBlockIndex1 t).2.2.2.2.2.2.2.1]; omega

/-- The neighbour-weight window's one block is the whole matrix. -/
theorem nbrWeightBlock1 (c : Dev nD) (t : Fin cfg1.N) :
    (iblk1 V c 4 t : S128x128.Idx → EReal) = V c main_v19 := by
  funext y
  show V c main_v19 (((cfg1.win 4).blk t).view.emb y) = V c main_v19 y
  refine congrArg _ (funext fun a => Fin.ext ?_)
  match a with
  | ⟨0, _⟩ => show win1_4.index t (0 : Fin 2) * 128 + 1 * (y 0).val = (y 0).val; rw [(inputBlockIndex1 t).2.2.2.2.2.2.2.2.1]; omega
  | ⟨1, _⟩ => show win1_4.index t (1 : Fin 2) * 128 + 1 * (y 1).val = (y 1).val; rw [(inputBlockIndex1 t).2.2.2.2.2.2.2.2.2.1]; omega

/-- The bias window's one block is the whole row. -/
theorem biasBlock1 (c : Dev nD) (t : Fin cfg1.N) :
    (iblk1 V c 5 t : S1x128.Idx → EReal) = V c main_v21 := by
  funext y
  show V c main_v21 (((cfg1.win 5).blk t).view.emb y) = V c main_v21 y
  refine congrArg _ (funext fun a => Fin.ext ?_)
  match a with
  | ⟨0, _⟩ => show win1_5.index t (0 : Fin 2) * 1 + 1 * (y 0).val = (y 0).val; rw [(inputBlockIndex1 t).2.2.2.2.2.2.2.2.2.2.1]; omega
  | ⟨1, _⟩ => show win1_5.index t (1 : Fin 2) * 128 + 1 * (y 1).val = (y 1).val; rw [(inputBlockIndex1 t).2.2.2.2.2.2.2.2.2.2.2.1]; omega

/-- The closing matrix's window's one block is the whole matrix. -/
theorem closingWeightBlock1 (c : Dev nD) (t : Fin cfg1.N) :
    (iblk1 V c 6 t : S128x128.Idx → EReal) = V c main_v20 := by
  funext y
  show V c main_v20 (((cfg1.win 6).blk t).view.emb y) = V c main_v20 y
  refine congrArg _ (funext fun a => Fin.ext ?_)
  match a with
  | ⟨0, _⟩ => show win1_6.index t (0 : Fin 2) * 128 + 1 * (y 0).val = (y 0).val; rw [(inputBlockIndex1 t).2.2.2.2.2.2.2.2.2.2.2.2.1]; omega
  | ⟨1, _⟩ => show win1_6.index t (1 : Fin 2) * 128 + 1 * (y 1).val = (y 1).val; rw [(inputBlockIndex1 t).2.2.2.2.2.2.2.2.2.2.2.2.2.1]; omega

/-- The closing bias window's one block is the whole row. -/
theorem closingBiasBlock1 (c : Dev nD) (t : Fin cfg1.N) :
    (iblk1 V c 7 t : S1x128.Idx → EReal) = V c main_v22 := by
  funext y
  show V c main_v22 (((cfg1.win 7).blk t).view.emb y) = V c main_v22 y
  refine congrArg _ (funext fun a => Fin.ext ?_)
  match a with
  | ⟨0, _⟩ => show win1_7.index t (0 : Fin 2) * 1 + 1 * (y 0).val = (y 0).val; rw [(inputBlockIndex1 t).2.2.2.2.2.2.2.2.2.2.2.2.2.2.1]; omega
  | ⟨1, _⟩ => show win1_7.index t (1 : Fin 2) * 128 + 1 * (y 1).val = (y 1).val; rw [(inputBlockIndex1 t).2.2.2.2.2.2.2.2.2.2.2.2.2.2.2]; omega

/-! ## What a grid point writes back -/

/-- Grid point t writes back block t of the second layer, through the closing map, of the arrays the stage was
    entered with. -/
theorem writtenBlock1 (c : Dev nD) (t : Fin cfg1.N) :
    (dat1 (F := Ideal) V c).flushed 8 t = ((cfg1.win 8).blk t).view.read (Elt Ideal)
      (Sage.layer2 (n := 100000) (V c main_v13) (V c main_v17) (V c main_v5) (V c main_v18) (V c main_v19) (V c main_v21) (V c main_v20) (V c main_v22)) := by
  show (cfg1.win 8).cut (grid1.coords t) ((dat1 V c).after 8 t) = _
  rw [after1_8]
  unfold out1_8
  rw [View.canon_unit_zero zeroOffsets1]
  simp only [View.ld_unit_zero (S := S2000x128) zeroOffsets1, View.ld_unit_zero (S := S2000x1) zeroOffsets1,
    View.ld_unit_zero (S := S128x128) zeroOffsets1, View.ld_unit_zero (S := S1x128) zeroOffsets1]
  rw [BodyValue.pay1_eq, selfWeightBlock1 V c t, nbrWeightBlock1 V c t, biasBlock1 V c t, closingWeightBlock1 V c t,
    closingBiasBlock1 V c t]
  refine funext fun (j : S2000x128.Idx) => ?_
  obtain ⟨p, q, rfl⟩ : ∃ (p : Fin 2000) (q : Fin 128), j = ix2 p q := ⟨j 0, j 1, eq_ix2 j⟩
  have ht : t.val < 50 := t.isLt
  have hp : p.val < 2000 := p.isLt
  have hr : t.val * 2000 + p.val < 100000 := by omega
  have hi : ((cfg1.win 8).blk t).view.emb (ix2 p q) = (ix2 (⟨t.val * 2000 + p.val, hr⟩ : Fin 100000) q : S100000x128.Idx) := by
    funext a; apply Fin.ext
    match a with
    | ⟨0, _⟩ => show win1_8.index t (0 : Fin 2) * 2000 + 1 * p.val = t.val * 2000 + p.val; rw [(resultBlockIndex1 t).1]; omega
    | ⟨1, _⟩ => show win1_8.index t (1 : Fin 2) * 128 + 1 * q.val = q.val; rw [(resultBlockIndex1 t).2]; omega
  show Sage.layer2 (iblk1 V c 0 t) (iblk1 V c 1 t) (iblk1 V c 2 t) (V c main_v18) (V c main_v19) (V c main_v21) (V c main_v20) (V c main_v22) (ix2 p q)
    = Sage.layer2 (n := 100000) (V c main_v13) (V c main_v17) (V c main_v5) (V c main_v18) (V c main_v19) (V c main_v21) (V c main_v20) (V c main_v22) (((cfg1.win 8).blk t).view.emb (ix2 p q))
  rw [hi]
  exact layer2_row (V c main_v18) (V c main_v19) (V c main_v21) (V c main_v20) (V c main_v22) p ⟨t.val * 2000 + p.val, hr⟩ q
    (fun k => featBlock1 V c t p k _ rfl) (fun k => aggBlock1 V c t p k _ rfl) (degBlock1 V c t p _ rfl)

/-! ## The blocks tile the array -/

/-- An index of the array is in point t's block iff each coordinate is in the block's range on its axis. -/
theorem mem_block1 (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v23).slice (win1_8.rect t)).set ↔ _
  rw [View.set_slice_whole, Rect.mem_set_unit]
  exact Iff.rfl

/-- Every node's row lies in the block of the grid point its node number divided by 2000 names. -/
theorem covered1 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hlt : (i 0).val / 2000 < cfg1.N := by show (i 0).val / 2000 < 50; omega
  obtain ⟨t, ht⟩ : ∃ t : Fin cfg1.N, t.val = (i 0).val / 2000 := ⟨⟨_, hlt⟩, rfl⟩
  refine ⟨t, flush1_8 t, ?_⟩
  rw [mem_block1]
  obtain ⟨e0, e1⟩ := resultBlockIndex1 t
  intro a
  match a with
  | ⟨0, _⟩ => show win1_8.index t (0 : Fin 2) * 2000 ≤ (i 0).val ∧ (i 0).val < win1_8.index t (0 : Fin 2) * 2000 + 2000; rw [e0, ht]; omega
  | ⟨1, _⟩ => show win1_8.index t (1 : Fin 2) * 128 ≤ (i 1).val ∧ (i 1).val < win1_8.index t (1 : Fin 2) * 128 + 128; rw [e1]; omega

/-- THE ARRAY the stage leaves: the layer of the arrays it was entered with. -/
theorem final1 (c : Dev nD) :
    (dat1 (F := Ideal) V c).arrAt 8 cfg1.N
      = Cert.Sage.layer2 (n := 100000) (V c main_v13) (V c main_v17) (V c main_v5) (V c main_v18) (V c main_v19) (V c main_v21) (V c main_v20) (V c main_v22) :=
  (dat1 (F := Ideal) V c).arrAt_eq_of_cover 8 _ (fun t _ => writtenBlock1 V c t) covered1

end Cert.KernelIdeal.RegionValue

end
-- ==== Proof.Mask.lean ====
/-
  What the added precondition says of the edge sources, and what it buys.

  The precondition's last conjunct is "every source index lies in [0, 100000)", read signed. For such an index the
  wrap of negative indices does nothing, the source position is the index itself, and it lies inside [0, 99999]: the
  range test that guards the kernel program's gather is true at every edge, so the fill is never applied and the
  messages are exactly the rows read.
-/
import proofs.«414488_j78451872629304_3_alg».proof.Proof.Gen.KernelIdeal
import proofs.«414488_j78451872629304_3_alg».proof.Proof.Gen.Pre_finite_inputs
import proofs.«414488_j78451872629304_3_alg».proof.Proof.AggK
import proofs.«414488_j78451872629304_3_alg».proof.Defs
import Idealize.ShloMosaic.Lib.ValueIdx
import Idealize.ShloMosaic.Lib.ReduceAll
import Idealize.ShloMosaic.Lib.StableHlo.Predicate
import Idealize.ShloMosaic.Lib.Pipeline.Value
import proofs.«414488_j78451872629304_3_alg».proof.Proof.LibKeepdims

noncomputable section

namespace Cert.KernelIdeal.HostValue

open Cert.KernelIdeal Cert.KernelIdeal.Gen Idealize.ShloMosaic Idealize.ShloMosaic.ValueIdx Idealize.SL.Sem

/-! ## Words: a 32-bit word whose signed value is known compares as that value -/

/-- A word that is not negative is not below zero. -/
private theorem slt_zero_of_nonneg (s : BitVec 32) (h0 : 0 ≤ s.toInt) : IntOp.cmpi .slt s 0#32 = 0#1 := by
  have hz : (0#32 : BitVec 32).toInt = 0 := by decide
  have hb : s.slt 0#32 = false := by
    unfold BitVec.slt
    rw [hz]
    exact decide_eq_false (by omega)
  show BitVec.ofBool (s.slt 0#32) = 0#1
  rw [hb]
  rfl

/-- A word that is not negative is at least zero. -/
private theorem sge_zero_of_nonneg (s : BitVec 32) (h0 : 0 ≤ s.toInt) : IntOp.cmpi .sge s 0#32 = 1#1 := by
  have hz : (0#32 : BitVec 32).toInt = 0 := by decide
  have hb : (0#32 : BitVec 32).sle s = true := by
    unfold BitVec.sle
    rw [hz]
    exact decide_eq_true h0
  show BitVec.ofBool ((0#32 : BitVec 32).sle s) = 1#1
  rw [hb]
  rfl

/-- A word below 100000 is at most 99999. -/
private theorem sle_last_of_lt (s : BitVec 32) (h1 : s.toInt < 100000) : IntOp.cmpi .sle s 99999#32 = 1#1 := by
  have hz : (99999#32 : BitVec 32).toInt = 99999 := by decide
  have hb : s.sle 99999#32 = true := by
    unfold BitVec.sle
    rw [hz]
    exact decide_eq_true (by omega)
  show BitVec.ofBool (s.sle 99999#32) = 1#1
  rw [hb]
  rfl

/-- A word that tests "at least zero" is not negative. -/
private theorem nonneg_of_sge_zero (s : BitVec 32) (h : IntOp.cmpi .sge s 0#32 = 1#1) : 0 ≤ s.toInt := by
  have hz : (0#32 : BitVec 32).toInt = 0 := by decide
  have hb : (0#32 : BitVec 32).sle s = true := (StableHlo.Predicate.ofBool_eq_one_iff _).1 h
  unfold BitVec.sle at hb
  rw [hz] at hb
  exact of_decide_eq_true hb

/-- A word that tests "below 100000" has a signed value below 100000. -/
private theorem lt_of_slt (s : BitVec 32) (h : IntOp.cmpi .slt s 100000#32 = 1#1) : s.toInt < 100000 := by
  have hz : (100000#32 : BitVec 32).toInt = 100000 := by decide
  have hb : s.slt 100000#32 = true := (StableHlo.Predicate.ofBool_eq_one_iff _).1 h
  unfold BitVec.slt at hb
  rw [hz] at hb
  exact of_decide_eq_true hb

/-! ## An and-reduce of ones -/

/-- A left fold by "and" from 1 over words that are all 1 stays 1. -/
private theorem foldl_andi_ones {ι : Type} (f : ι → BitVec 1) (hf : ∀ n, f n = 1#1) :
    ∀ l : List ι, l.foldl (fun r n => IntOp.andi r (f n)) 1#1 = 1#1
  | [] => rfl
  | a :: l => by
    have ha : IntOp.andi (1#1 : BitVec 1) (f a) = 1#1 := by rw [hf a]; decide
    show l.foldl (fun r n => IntOp.andi r (f n)) (IntOp.andi 1#1 (f a)) = 1#1
    rw [ha]
    exact foldl_andi_ones f hf l

/-- An and-reduce, started at 1, of an array whose every entry is 1 is 1 at every result index. -/
private theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-! ## The source position and the range test at an edge -/

/-- At an edge whose source index is not negative the wrap does nothing: the source position is the index. -/
private theorem srcPos_apply (src : IVec S1600000 32) (e : Fin 1600000) (u : Fin 1) (h0 : 0 ≤ (src (ix1 e)).toInt) :
    srcPos src (ix2 e u) = src (ix1 e) := by
  unfold srcPos
  rw [Cert.LibKeepdims.broadcastInDim_a_a1_apply, select_apply]
  have hc : cmpi .slt src (broadcastInDim S1600000 ![] bcast_S_S1600000 (constantI S_ 32 0#32)) (ix1 e) = 0#1 :=
    slt_zero_of_nonneg (src (ix1 e)) h0
  rw [hc, select_zero]

/-- With every source index in [0, 100000) the range test is true at every edge and feature. -/
private theorem srcInRange_eq_one (src : IVec S1600000 32)
    (hsrc : ∀ e : S1600000.Idx, 0 ≤ (src e).toInt ∧ (src e).toInt < 100000) (j : S1600000x128.Idx) :
    srcInRange src j = 1#1 := by
  unfold srcInRange
  refine reduce_andi_ones _ _ _ _ (fun i => ?_) rfl _
  obtain ⟨e, u, rfl⟩ : ∃ (e : Fin 1600000) (u : Fin 1), i = ix2 e u := ⟨i 0, i 1, eq_ix2 i⟩
  obtain ⟨h0, h1⟩ := hsrc (ix1 e)
  show IntOp.andi (IntOp.cmpi .sge (srcPos src (ix2 e u)) 0#32) (IntOp.cmpi .sle (srcPos src (ix2 e u)) 99999#32) = 1#1
  rw [srcPos_apply src e u h0, sge_zero_of_nonneg _ h0, sle_last_of_lt _ h1]
  decide

/-- With every source index in range, no message is filled: the messages are the rows read. -/
theorem messages_eq {F : FTy → Type} [FloatOps F] (h : FVec F S100000x128 .f32) (src : IVec S1600000 32)
    (hsrc : ∀ e : S1600000.Idx, 0 ≤ (src e).toInt ∧ (src e).toInt < 100000) :
    messages h src = rowsOf h src := by
  unfold messages
  funext j
  rw [select_apply, srcInRange_eq_one src hsrc j, select_one]

/-- The precondition, opened at the edge sources: every source index, read signed, lies in [0, 100000). -/
theorem src_in_range (m : (ℓ : Loc nD τ sig) → Buf (Elt Ideal) ℓ) (hpre : Cert.Pre_KernelIdeal m) (c : Dev nD) :
    ∀ e : S1600000.Idx, 0 ≤ (m ((c.tc : Thread nD τ).loc main_arg1) e).toInt
      ∧ (m ((c.tc : Thread nD τ).loc main_arg1) e).toInt < 100000 := by
  intro e
  have h := congrFun (hpre c) ValueIdx.ix0
  dsimp only [Cert.Pre_finite_inputs.fn, Cert.Pre_finite_inputs.fn_part1, Cert.Pre_finite_inputs.fn_part2] at h
  obtain ⟨-, hall⟩ := IntOp.andi_eq_one.1 h
  haveI : Subsingleton Cert.Pre_finite_inputs.S_.Idx := ⟨fun a b => funext fun d => d.elim0⟩
  have hel := Host.reduce_andi_all _ _ _ _ _ hall e
  obtain ⟨hge, hlt⟩ := IntOp.andi_eq_one.1 hel
  exact ⟨nonneg_of_sge_zero _ hge, lt_of_slt _ hlt⟩

end Cert.KernelIdeal.HostValue

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.RefSpec.lean ====
/-
  The reference program's result, read entry by entry: it is the second layer (through the closing linear map) of the
  first layer of the inputs, with the reference's own aggregate and clamped degree.

  The reference's aggregate is the plain one: an edge's message is the row of `h` at its source position (a negative
  source index wrapped once by the node count; the gather clamps what is still outside), summed into the edge's
  target. The dense part — the matrix products as sums over the contracted feature, the transposes, the bias rows, the
  quotient by the clamped degree, the clamp at zero — is read one operation at a time from the generated index lemmas.
-/
import proofs.«414488_j78451872629304_3_alg».proof.Proof.Gen.ReferenceIdeal.Read
import proofs.«414488_j78451872629304_3_alg».proof.Proof.Spec
import proofs.«414488_j78451872629304_3_alg».proof.Proof.LibKeepdims
import proofs.«414488_j78451872629304_3_alg».proof.Proof.LibHostRead
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The reference's aggregate of node features `h` along the edges `src → dst`. -/
def aggR (h : FVec F S100000x128 .f32) (src dst : IVec S1600000 32) : FVec F S100000x128 .f32 :=
  Host.scatterAdd scatter_S100000x128_S1600000x1_S1600000x128_1_0_0_1 (val_main_v7 (F := F)) (val_main_v8 (F := F) dst)
    (Host.gather gather_S100000x128_S1600000x1_S1600000x128_1_0_n_n_0_1_1128 h (val_main_v5 (F := F) src))

/-- The reference's clamped in-degree, as a column. -/
def degR (dst : IVec S1600000 32) : FVec F S100000x1 .f32 := val_main_v15 (F := F) dst

/-- The first layer's output as the reference computes it. -/
abbrev hidden (x0 : FVec Ideal S100000x128 .f32) (x1 x2 : IVec S1600000 32) (x3 x4 : FVec Ideal S128x128 .f32)
    (x5 : FVec Ideal S128 .f32) : (Cert.Sage.Nodes 100000).Idx → EReal :=
  Cert.Sage.layer1 (n := 100000) x0 (aggR (F := Ideal) x0 x1 x2) (degR (F := Ideal) x2)
    (val_main_v18 (F := Ideal) x3) (val_main_v20 (F := Ideal) x4) (val_main_v23 (F := Ideal) x5)

/-- The reference's first aggregate is the plain aggregate of the inputs. -/
theorem v9_eq (x0 : FVec F S100000x128 .f32) (x1 x2 : IVec S1600000 32) :
    val_main_v9 (F := F) x0 x1 x2 = aggR x0 x1 x2 := rfl

/-- The reference's first clamped degree column. -/
theorem v15_eq (x2 : IVec S1600000 32) : val_main_v15 (F := F) x2 = degR x2 := rfl

/-- The first layer read at a node and a feature. -/
theorem layer1_ix2 (h s : (Cert.Sage.Nodes 100000).Idx → EReal) (d : (Cert.Sage.Col 100000).Idx → EReal)
    (ws wn : Cert.Sage.Sq.Idx → EReal) (b : Cert.Sage.Row.Idx → EReal) (r : Fin 100000) (j : Fin 128) :
    Cert.Sage.layer1 (n := 100000) h s d ws wn b (ix2 r j)
      = max (Cert.Sage.combAt h s d ws wn b r j) Cert.Sage.zeroWord := rfl

/-- The mean of the aggregate at a node and a feature: the aggregate over the clamped degree of the node. -/
theorem v17_at (x0 : FVec Ideal S100000x128 .f32) (x1 x2 : IVec S1600000 32) (r : Fin 100000) (k : Fin 128) :
    val_main_v17 (F := Ideal) x0 x1 x2 (ix2 r k)
      = Ideal.div (aggR (F := Ideal) x0 x1 x2 (ix2 r k)) (degR (F := Ideal) x2 (ix2 r (0 : Fin 1))) := by
  have ed : idx_main_v16 (ix2 r k) = ix2 r (0 : Fin 1) :=
    funext fun a => Fin.ext (by match a with | ⟨0, _⟩ => rfl | ⟨1, _⟩ => rfl)
  rw [val_main_v17_apply, val_main_v16_apply, ed, v9_eq, v15_eq, Ideal.hostDivf_def]

/-- The first layer's output, as the reference's own stage. -/
theorem hidden_eq (x0 : FVec Ideal S100000x128 .f32) (x1 x2 : IVec S1600000 32) (x3 x4 : FVec Ideal S128x128 .f32)
    (x5 : FVec Ideal S128 .f32) :
    val_main_v26 (F := Ideal) x0 x1 x2 x3 x4 x5 = hidden x0 x1 x2 x3 x4 x5 := by
  funext i
  obtain ⟨r, j, rfl⟩ : ∃ (r : Fin 100000) (j : Fin 128), i = ix2 r j := ⟨i 0, i 1, eq_ix2 i⟩
  have el : ∀ k : Fin 128, lidx_main_v19 (ix2 r j) k = ix2 r k := fun k =>
    funext fun a => Fin.ext (by match a with | ⟨0, _⟩ => rfl | ⟨1, _⟩ => rfl)
  have er : ∀ k : Fin 128, ridx_main_v19 (ix2 r j) k = ix2 k j := fun k =>
    funext fun a => Fin.ext (by match a with | ⟨0, _⟩ => rfl | ⟨1, _⟩ => rfl)
  have el' : ∀ k : Fin 128, lidx_main_v21 (ix2 r j) k = ix2 r k := fun k =>
    funext fun a => Fin.ext (by match a with | ⟨0, _⟩ => rfl | ⟨1, _⟩ => rfl)
  have er' : ∀ k : Fin 128, ridx_main_v21 (ix2 r j) k = ix2 k j := fun k =>
    funext fun a => Fin.ext (by match a with | ⟨0, _⟩ => rfl | ⟨1, _⟩ => rfl)
  have eb : idx_main_v24 (ix2 r j) = ix2 (0 : Fin 1) j :=
    funext fun a => Fin.ext (by match a with | ⟨0, _⟩ => rfl | ⟨1, _⟩ => rfl)
  unfold hidden
  rw [val_main_v26_apply, val_main_v25_apply, val_main_v22_apply, val_main_v19_apply, val_main_v21_apply,
    val_main_v24_apply, val_main_call1_v0_apply, val_main_call1_cst_apply, layer1_ix2, eb]
  simp only [el, er, el', er', v17_at]
  rfl

/-- The reference's second aggregate is the plain aggregate of the first layer's output: the zero it starts from,
    the targets and the wrapped sources are the same arrays as the first aggregate's, built a second time. -/
theorem v36_eq (x0 : FVec F S100000x128 .f32) (x1 x2 : IVec S1600000 32) (x3 x4 : FVec F S128x128 .f32)
    (x5 : FVec F S128 .f32) :
    val_main_v36 (F := F) x0 x1 x2 x3 x4 x5 = aggR (val_main_v26 (F := F) x0 x1 x2 x3 x4 x5) x1 x2 := by
  unfold val_main_v36 val_main_v33 aggR
  rfl

/-- The reference's second clamped degree column is the first, built a second time. -/
theorem v42_eq (x2 : IVec S1600000 32) : val_main_v42 (F := F) x2 = degR x2 := by
  unfold degR val_main_v42 val_main_v15
  rfl

/-- The second layer and the closing linear map read at a node and a feature. -/
theorem layer2_ix2 (h s : (Cert.Sage.Nodes 100000).Idx → EReal) (d : (Cert.Sage.Col 100000).Idx → EReal)
    (ws wn : Cert.Sage.Sq.Idx → EReal) (b : Cert.Sage.Row.Idx → EReal) (w3 : Cert.Sage.Sq.Idx → EReal)
    (b3 : Cert.Sage.Row.Idx → EReal) (r : Fin 100000) (j : Fin 128) :
    Cert.Sage.layer2 (n := 100000) h s d ws wn b w3 b3 (ix2 r j)
      = (∑ k : Fin 128, Cert.Sage.combAt h s d ws wn b r k * w3 (ix2 k j)) + b3 (ix2 (0 : Fin 1) j) := rfl

/-- The mean of the second aggregate at a node and a feature: the aggregate of the first layer's output over the
    clamped degree of the node. -/
theorem v44_at (x0 : FVec Ideal S100000x128 .f32) (x1 x2 : IVec S1600000 32) (x3 x4 : FVec Ideal S128x128 .f32)
    (x5 : FVec Ideal S128 .f32) (r : Fin 100000) (k : Fin 128) :
    val_main_v44 (F := Ideal) x0 x1 x2 x3 x4 x5 (ix2 r k)
      = Ideal.div (aggR (F := Ideal) (hidden x0 x1 x2 x3 x4 x5) x1 x2 (ix2 r k))
          (degR (F := Ideal) x2 (ix2 r (0 : Fin 1))) := by
  have ed : idx_main_v43 (ix2 r k) = ix2 r (0 : Fin 1) :=
    funext fun a => Fin.ext (by match a with | ⟨0, _⟩ => rfl | ⟨1, _⟩ => rfl)
  rw [val_main_v44_apply, val_main_v43_apply, ed, v36_eq, v42_eq, hidden_eq, Ideal.hostDivf_def]

/-- The second layer's combine at a node and a feature, as the reference's own stage. -/
theorem v52_at (x0 : FVec Ideal S100000x128 .f32) (x1 x2 : IVec S1600000 32) (x3 x4 : FVec Ideal S128x128 .f32)
    (x5 : FVec Ideal S128 .f32) (x6 x7 : FVec Ideal S128x128 .f32) (x8 : FVec Ideal S128 .f32)
    (r : Fin 100000) (j : Fin 128) :
    val_main_v52 (F := Ideal) x0 x1 x2 x3 x4 x5 x6 x7 x8 (ix2 r j)
      = Cert.Sage.combAt (n := 100000) (hidden x0 x1 x2 x3 x4 x5)
          (aggR (F := Ideal) (hidden x0 x1 x2 x3 x4 x5) x1 x2) (degR (F := Ideal) x2)
          (val_main_v45 (F := Ideal) x6) (val_main_v47 (F := Ideal) x7) (val_main_v50 (F := Ideal) x8) r j := by
  have el : ∀ k : Fin 128, lidx_main_v46 (ix2 r j) k = ix2 r k := fun k =>
    funext fun a => Fin.ext (by match a with | ⟨0, _⟩ => rfl | ⟨1, _⟩ => rfl)
  have er : ∀ k : Fin 128, ridx_main_v46 (ix2 r j) k = ix2 k j := fun k =>
    funext fun a => Fin.ext (by match a with | ⟨0, _⟩ => rfl | ⟨1, _⟩ => rfl)
  have el' : ∀ k : Fin 128, lidx_main_v48 (ix2 r j) k = ix2 r k := fun k =>
    funext fun a => Fin.ext (by match a with | ⟨0, _⟩ => rfl | ⟨1, _⟩ => rfl)
  have er' : ∀ k : Fin 128, ridx_main_v48 (ix2 r j) k = ix2 k j := fun k =>
    funext fun a => Fin.ext (by match a with | ⟨0, _⟩ => rfl | ⟨1, _⟩ => rfl)
  have eb : idx_main_v51 (ix2 r j) = ix2 (0 : Fin 1) j :=
    funext fun a => Fin.ext (by match a with | ⟨0, _⟩ => rfl | ⟨1, _⟩ => rfl)
  rw [val_main_v52_apply, val_main_v49_apply, val_main_v46_apply, val_main_v48_apply, val_main_v51_apply, eb,
    hidden_eq]
  simp only [el, er, el', er', v44_at]
  rfl

/-- THE REFERENCE'S RESULT is the second layer of the first. -/
theorem result_eq (x0 : FVec Ideal S100000x128 .f32) (x1 x2 : IVec S1600000 32) (x3 x4 : FVec Ideal S128x128 .f32)
    (x5 : FVec Ideal S128 .f32) (x6 x7 : FVec Ideal S128x128 .f32) (x8 : FVec Ideal S128 .f32)
    (x9 : FVec Ideal S128x128 .f32) (x10 : FVec Ideal S128 .f32) :
    val_main_v57 (F := Ideal) x0 x1 x2 x3 x4 x5 x6 x7 x8 x9 x10
      = Cert.Sage.layer2 (n := 100000) (hidden x0 x1 x2 x3 x4 x5)
          (aggR (F := Ideal) (hidden x0 x1 x2 x3 x4 x5) x1 x2) (degR (F := Ideal) x2)
          (val_main_v45 (F := Ideal) x6) (val_main_v47 (F := Ideal) x7) (val_main_v50 (F := Ideal) x8)
          (val_main_v53 (F := Ideal) x9) (val_main_v55 (F := Ideal) x10) := by
  funext i
  obtain ⟨r, j, rfl⟩ : ∃ (r : Fin 100000) (j : Fin 128), i = ix2 r j := ⟨i 0, i 1, eq_ix2 i⟩
  have el : ∀ k : Fin 128, lidx_main_v54 (ix2 r j) k = ix2 r k := fun k =>
    funext fun a => Fin.ext (by match a with | ⟨0, _⟩ => rfl | ⟨1, _⟩ => rfl)
  have er : ∀ k : Fin 128, ridx_main_v54 (ix2 r j) k = ix2 k j := fun k =>
    funext fun a => Fin.ext (by match a with | ⟨0, _⟩ => rfl | ⟨1, _⟩ => rfl)
  have eb : idx_main_v56 (ix2 r j) = ix2 (0 : Fin 1) j :=
    funext fun a => Fin.ext (by match a with | ⟨0, _⟩ => rfl | ⟨1, _⟩ => rfl)
  rw [val_main_v57_apply, val_main_v54_apply, val_main_v56_apply, eb, layer2_ix2]
  simp only [el, er, v52_at]
  rfl

end Cert.ReferenceIdeal.RefValue

end
-- ==== Proof.Bridge.lean ====
/-
  The kernel program's result is the reference's.

  Both programs compute, for every node and output feature, the second layer (through the closing linear map) of the
  first layer of the inputs. They differ in three spellings only:
  * the kernel program guards its gather with a range test and a fill; under the precondition on the edge sources the
    test is true everywhere, so its aggregate is the reference's plain gather-and-sum;
  * the kernel program lays a bias out as a row by a reshape, the reference by a broadcast: both rows read `b j` at
    `(0, j)`;
  * the kernel program reads the clamped degree as a column, the reference broadcasts that column across the
    features first: the same quotient at every entry.
  Everything else — the transposes, the degree column, the sums — is the same operation applied to the same arrays.
-/
import proofs.«414488_j78451872629304_3_alg».proof.Proof.KernelRun
import proofs.«414488_j78451872629304_3_alg».proof.Proof.HostK
import proofs.«414488_j78451872629304_3_alg».proof.Proof.Region0
import proofs.«414488_j78451872629304_3_alg».proof.Proof.Region1
import proofs.«414488_j78451872629304_3_alg».proof.Proof.Mask
import proofs.«414488_j78451872629304_3_alg».proof.Proof.RefSpec
import proofs.«414488_j78451872629304_3_alg».proof.Proof.LibKeepdims
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.HostValue Cert.KernelIdeal.RegionValue
open Idealize.ShloMosaic Idealize.ShloMosaic.TcCoe Idealize.SL.Sem Idealize.ShloMosaic.ValueIdx

/-! ## The same host operations, named in the two programs -/

/-- The two programs' gathers take whole rows at one index per edge. -/
theorem gather_rec_eq : Cert.KernelIdeal.gather_S100000x128_S1600000x1_S1600000x128_1_0_n_n_0_1_1128
    = Cert.ReferenceIdeal.gather_S100000x128_S1600000x1_S1600000x128_1_0_n_n_0_1_1128 := rfl

/-- The two programs' row scatters add whole rows at one index per edge. -/
theorem scatter_rec_eq : Cert.KernelIdeal.scatter_S100000x128_S1600000x1_S1600000x128_1_0_0_1
    = Cert.ReferenceIdeal.scatter_S100000x128_S1600000x1_S1600000x128_1_0_0_1 := rfl

/-- The two programs' degree scatters add one number at one index per edge. -/
theorem scatter1_rec_eq : Cert.KernelIdeal.scatter_S100000_S1600000x1_S1600000_n_0_0_1
    = Cert.ReferenceIdeal.scatter_S100000_S1600000x1_S1600000_n_0_0_1 := rfl

/-- With every source index in range, the kernel program's aggregate is the reference's. -/
theorem agg_eq (h : FVec Ideal S100000x128 .f32) (src dst : IVec S1600000 32)
    (hsrc : ∀ e : S1600000.Idx, 0 ≤ (src e).toInt ∧ (src e).toInt < 100000) :
    aggK (F := Ideal) h src dst = Cert.ReferenceIdeal.RefValue.aggR (F := Ideal) h src dst := by
  unfold aggK
  rw [messages_eq h src hsrc]
  unfold sumInto rowsOf srcPos Cert.ReferenceIdeal.RefValue.aggR Cert.ReferenceIdeal.Read.val_main_v7
    Cert.ReferenceIdeal.Read.val_main_cst Cert.ReferenceIdeal.Read.val_main_v8 Cert.ReferenceIdeal.Read.val_main_v5
    Cert.ReferenceIdeal.Read.val_main_v4 Cert.ReferenceIdeal.Read.val_main_v1 Cert.ReferenceIdeal.Read.val_main_v3
    Cert.ReferenceIdeal.Read.val_main_v0 Cert.ReferenceIdeal.Read.val_main_v2 Cert.ReferenceIdeal.Read.val_main_c
    Cert.ReferenceIdeal.Read.val_main_c_0
  rw [gather_rec_eq, scatter_rec_eq]

/-- The clamped degree column is the same in the two programs. -/
theorem deg_eq (dst : IVec S1600000 32) :
    degK (F := Ideal) dst = Cert.ReferenceIdeal.RefValue.degR (F := Ideal) dst := by
  unfold degK Cert.ReferenceIdeal.RefValue.degR Cert.ReferenceIdeal.Read.val_main_v15 Cert.ReferenceIdeal.Read.val_main_v14
    Cert.ReferenceIdeal.Read.val_main_call0_v1 Cert.ReferenceIdeal.Read.val_main_call0_v0 Cert.ReferenceIdeal.Read.val_main_cst_3
    Cert.ReferenceIdeal.Read.val_main_v13 Cert.ReferenceIdeal.Read.val_main_v11 Cert.ReferenceIdeal.Read.val_main_cst_2
    Cert.ReferenceIdeal.Read.val_main_v12 Cert.ReferenceIdeal.Read.val_main_v10 Cert.ReferenceIdeal.Read.val_main_cst_1
  rw [scatter1_rec_eq]

/-- A bias laid out as a row: the reshape and the broadcast read the same entry. -/
theorem row_eq (b : FVec Ideal S128 .f32) (hb : Cert.ReferenceIdeal.S128.BroadcastsInDim Cert.ReferenceIdeal.S1x128
      (![1] : Fin 1 → Fin Cert.ReferenceIdeal.S1x128.rank)) :
    shapeCast S1x128 b shapeCasts_S128_S1x128 = broadcastInDim Cert.ReferenceIdeal.S1x128 ![1] hb b := by
  funext i
  obtain ⟨u, j, rfl⟩ : ∃ (u : Fin 1) (j : Fin 128), i = ix2 u j := ⟨i 0, i 1, eq_ix2 i⟩
  rw [shapeCast_a_1a_apply, Cert.LibKeepdims.broadcastInDim_b_1b_apply]

/-! ## The result -/

variable (m : (ℓ : Loc nD τ sig) → Buf (Elt Ideal) ℓ) (ρ : Dev nD → PrngReg)

/-- The first stage leaves the reference's first layer of the inputs. -/
theorem hidden_value (hpre : Cert.Pre_KernelIdeal m) (c : Dev nD) :
    (dat0 (F := Ideal) (V5 m ρ) c).arrAt 6 cfg0.N
      = Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hsrc := src_in_range m hpre c
  rw [final0 (V5 m ρ) c, V5_arg0, V5_v9, V5_v5, V5_v10, V5_v11, V5_v12, agg_eq _ _ _ hsrc, deg_eq,
    row_eq _ (Cert.ReferenceIdeal.Facts₀.bcast_S128_S1x128_1)]
  unfold Cert.ReferenceIdeal.RefValue.hidden Cert.ReferenceIdeal.Read.val_main_v18 Cert.ReferenceIdeal.Read.val_main_v20
    Cert.ReferenceIdeal.Read.val_main_v23
  rfl

/-- THE KERNEL PROGRAM'S RESULT, under the precondition: the reference's result of the same inputs. -/
theorem kernel_value (hpre : Cert.Pre_KernelIdeal m) (c : Dev nD) :
    W9 m ρ c (Proc.devRef .tc main_v23)
      = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hsrc := src_in_range m hpre c
  rw [Cert.ReferenceIdeal.RefValue.result_eq]
  refine (W9_arr m ρ c 8).trans ?_
  rw [final1 (V8 m ρ) c, V8_v13, V8_v17, V8_v5, V8_v18, V8_v19, V8_v21, V8_v20, V8_v22, hidden_value m ρ hpre c,
    agg_eq _ _ _ hsrc, deg_eq, row_eq _ (Cert.ReferenceIdeal.Facts₀.bcast_S128_S1x128_1), row_eq _ (Cert.ReferenceIdeal.Facts₀.bcast_S128_S1x128_1)]
  unfold Cert.ReferenceIdeal.Read.val_main_v45 Cert.ReferenceIdeal.Read.val_main_v47 Cert.ReferenceIdeal.Read.val_main_v50
    Cert.ReferenceIdeal.Read.val_main_v53 Cert.ReferenceIdeal.Read.val_main_v55
  rfl

end Cert.KernelIdeal.Bridge

end
-- ==== Proof.lean ====
/-
  Two mean-aggregating graph layers and a closing linear map, tiled over the nodes in two stages, against the same
  network written with whole-array operations.

  The tiled program leaves the aggregation along the edges to the host and fuses, per block of 2000 nodes, the
  division by the clamped in-degree, the two matrix products, the bias and (in the first stage) the clamp at zero; the
  second stage also applies the closing linear map. On the extended reals a change of float format is the identity and
  a blocked product is the whole product row by row, so stage by stage the tiled program computes exactly the
  reference's layers. The one place the two differ is an out-of-range edge source, where the tiled program's gather
  fills and the reference's clamps: the precondition keeps every source index inside the node range.
-/
import proofs.«414488_j78451872629304_3_alg».proof.Defs
import proofs.«414488_j78451872629304_3_alg».proof.Proof.Gen.Kernel
import proofs.«414488_j78451872629304_3_alg».proof.Proof.Gen.Kernel.Skeleton
import proofs.«414488_j78451872629304_3_alg».proof.Proof.Gen.Kernel.Launch
import proofs.«414488_j78451872629304_3_alg».proof.Proof.Gen.Kernel.Points
import proofs.«414488_j78451872629304_3_alg».proof.Proof.Gen.Kernel.Frame
import proofs.«414488_j78451872629304_3_alg».proof.Proof.Gen.KernelIdeal
import proofs.«414488_j78451872629304_3_alg».proof.Proof.Gen.KernelIdeal.Skeleton
import proofs.«414488_j78451872629304_3_alg».proof.Proof.Gen.KernelIdeal.Launch
import proofs.«414488_j78451872629304_3_alg».proof.Proof.Gen.KernelIdeal.Points
import proofs.«414488_j78451872629304_3_alg».proof.Proof.Gen.KernelIdeal.Frame
import proofs.«414488_j78451872629304_3_alg».proof.Proof.Gen.ReferenceIdeal
import proofs.«414488_j78451872629304_3_alg».proof.Proof.Gen.ReferenceIdeal.Run
import proofs.«414488_j78451872629304_3_alg».proof.Proof.Gen.ReferenceIdeal.Read
import proofs.«414488_j78451872629304_3_alg».proof.Proof.Gen.Pre_finite_inputs
import proofs.«414488_j78451872629304_3_alg».proof.Proof.KernelRun
import proofs.«414488_j78451872629304_3_alg».proof.Proof.Bridge
import Idealize.ShloMosaic.Adequacy
import Idealize.ShloMosaic.Init

noncomputable section

namespace Cert.Proof

open Idealize.ShloMosaic Idealize.ShloMosaic.TcCoe Idealize.SL.Sem

/-- The word-level tiled program runs and leaves its inputs alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its inputs alone: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From inputs that agree and satisfy the precondition the two programs end with the same result: the tiled
    program's final array is the reference's stage of the inputs, entry by entry. -/
theorem algebraic : Cert.algebraic_KernelIdeal_ReferenceIdeal := by
  intro m ρ m' ρ' hpre hagree
  refine ⟨fun c => Cert.KernelIdeal.Gen.W9 m ρ c (Proc.devRef .tc Cert.KernelIdeal.main_v23),
    Cert.KernelIdeal.RunValue.run_main m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v57_eq, e0, e1, e2, e3, e4, e5, e6, e7, e8, e9, e10]
  exact (Cert.KernelIdeal.Bridge.kernel_value m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
